-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2048 : Shape := ⟨2, ![2048, 2048]⟩
abbrev S2048 : Shape := ⟨1, ![2048]⟩
abbrev S16384x2048 : Shape := ⟨2, ![16384, 2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S16384x2048 : S_.BroadcastsInDim S16384x2048 (![] : Fin 0 → Fin S16384x2048.rank)
  reducesTo_S16384x2048_S_d0_1 : S16384x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S2048x2048 .f32) (main_arg1 : IVec S2048 32) (main_arg2 : FVec F S16384x2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S16384x2048 .f32 := Host.absf main_arg2
  let main_cst_0 : FVec F S_ .f32 := constant S_ .f32 0x7F800000#32
  let main_v5 : FVec F S16384x2048 .f32 := broadcastInDim S16384x2048 ![] bcast_S_S16384x2048 main_cst_0
  let main_v6 : IVec S16384x2048 1 := cmpf .olt main_v4 main_v5
  let main_c_1 : IVec S_ 1 := constantI S_ 1 1#1
  let main_v7 : IVec S_ 1 := (fun x v => Host.reduce IntOp.andi x v reducesTo_S16384x2048_S_d0_1 h_S_) main_v6 main_c_1
  let main_v8 : IVec S_ 1 := andi main_v3 main_v7
  let main_c_2 : IVec S_ 32 := constantI S_ 32 0#32
  let main_v9 : IVec S2048 32 := broadcastInDim S2048 ![] bcast_S_S2048 main_c_2
  let main_v10 : IVec S2048 1 := cmpi .sge main_arg1 main_v9
  let main_c_3 : IVec S_ 1 := constantI S_ 1 1#1
  let main_v11 : IVec S_ 1 := (fun x v => Host.reduce IntOp.andi x v reducesTo_S2048_S_d0 h_S_) main_v10 main_c_3
  let main_v12 : IVec S_ 1 := andi main_v8 main_v11
  let main_c_4 : IVec S_ 32 := constantI S_ 32 16384#32
  let main_v13 : IVec S2048 32 := broadcastInDim S2048 ![] bcast_S_S2048 main_c_4
  let main_v14 : IVec S2048 1 := cmpi .slt main_arg1 main_v13
  let main_c_5 : IVec S_ 1 := constantI S_ 1 1#1
  let main_v15 : IVec S_ 1 := (fun x v => Host.reduce IntOp.andi x v reducesTo_S2048_S_d0 h_S_) main_v14 main_c_5
  fn_part1 (F := F) main_v12 main_v15
-- ==== Kernel.lean ====
abbrev S2048x2048 : Shape := ⟨2, ![2048, 2048]⟩
abbrev S2048 : Shape := ⟨1, ![2048]⟩
abbrev S16384x2048 : Shape := ⟨2, ![16384, 2048]⟩
abbrev S2048x1 : Shape := ⟨2, ![2048, 1]⟩
abbrev S512x2048 : Shape := ⟨2, ![512, 2048]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩
abbrev S1x512 : Shape := ⟨2, ![1, 512]⟩
abbrev S_ : Shape := ⟨0, ![]⟩

abbrev nBuf : Space → Nat
  | .hbm => 8
  | .vmem => 9
  | .smem => 0
  | _ => 0

abbrev bufTy : (tb : Table) → Fin (tcTables nBuf tb) → BufTy
  | .hbm, ⟨0, _⟩ => ⟨S2048x2048, .f32⟩
  | .hbm, ⟨1, _⟩ => ⟨S2048, .i32⟩
  | .hbm, ⟨2, _⟩ => ⟨S16384x2048, .f32⟩
  | .hbm, ⟨3, _⟩ => ⟨S2048x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512, .i32⟩
  | .local _ .vmem, ⟨5, _⟩ => ⟨S512, .i32⟩
  | .local _ .vmem, ⟨6, _⟩ => ⟨S512x1, .f32⟩
  | .local _ .vmem, ⟨7, _⟩ => ⟨S512x1, .f32⟩
  | .local _ .vmem, ⟨8, _⟩ => ⟨S512x1, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 32], ![false, false]⟩

def k0_cond2 (i : grid0.Coords) : BitVec 1 :=
  let arg1 : BitVec 32 := BitVec.ofNat 32 (i 1).val
  let c31_i32 : BitVec 32 := 31#32
  let v40 : BitVec 1 := Scalar.cmpi .eq arg1 c31_i32
  let v41 : BitVec 32 := Scalar.extui v40
  let c0_i32_14 : BitVec 32 := 0#32
  let v42 : BitVec 1 := Scalar.cmpi .ne v41 c0_i32_14
  v42

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  transposes_S512x2048_p1_0_S2048x512 : S512x2048.Transposes [1, 0] S2048x512
  reduces_S512x2048_S512 : S512x2048.Reduces [1] S512
  shapeCasts_S512_S512x1 : S512.ShapeCasts S512x1
  transposes_S512x1_p1_0_S1x512 : S512x1.Transposes [1, 0] S1x512
  broadcasts_S512x1_S512x512 : S512x1.Broadcasts S512x512
  broadcasts_S1x512_S512x512 : S1x512.Broadcasts S512x512
  inb_S512_S512_0 : ∀ a, (![0] : Fin 1 → Nat) a + S512.size a ≤ S512.size a
  h_S512 : 0 < S512.numel
  iota_S1x512_d1_w32 : S1x512.Iotas .tc 32 [1]
  reduces_S512x512_S512 : S512x512.Reduces [1] S512
  reducesTo_S2048x1_S_d0_1 : S2048x1.ReducesTo [0, 1] S_
  h_S_ : 0 < S_.numel
  dot_S512x2048_S2048x512_S512x512_1_0_0_1_n_n_wf : DotDims.WF S512x2048 S2048x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S2048x2048.size a
  hwx0_0 : ∀ i : grid0.Coords, EltTy.bits .f32 = 32 ∨ (Rect.block (s := S2048x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S16384x2048.size a
  hwx0_1 : ∀ i : grid0.Coords, EltTy.bits .f32 = 32 ∨ (Rect.block (s := S16384x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S2048.size a
  hwx0_2 : ∀ i : grid0.Coords, EltTy.bits .i32 = 32 ∨ (Rect.block (s := S2048) S512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S2048x1.size a
  hwx0_3 : ∀ i : grid0.Coords, EltTy.bits .f32 = 32 ∨ (Rect.block (s := S2048x1) S512x1.size (cc0_transform_3 i) (hinb0_3 i)).WholeWords (EltTy.packing .f32)

variable [Facts₀]

def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2048x2048 : Shape := ⟨2, ![2048, 2048]⟩
abbrev S2048 : Shape := ⟨1, ![2048]⟩
abbrev S16384x2048 : Shape := ⟨2, ![16384, 2048]⟩
abbrev S_ : Shape := ⟨0, ![]⟩
abbrev S2048x1 : Shape := ⟨2, ![2048, 1]⟩
abbrev S16384 : Shape := ⟨1, ![16384]⟩
abbrev S1x16384 : Shape := ⟨2, ![1, 16384]⟩
abbrev S2048x16384 : Shape := ⟨2, ![2048, 16384]⟩
abbrev S2048x1x1 : Shape := ⟨3, ![2048, 1, 1]⟩
abbrev S1 : Shape := ⟨1, ![1]⟩
abbrev S1x1x1 : Shape := ⟨3, ![1, 1, 1]⟩

abbrev nBuf : Space → Nat
  | .hbm => 56
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .i32⟩
  | .hbm, ⟨2, _⟩ => ⟨S16384x2048, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S16384x2048, .f32⟩
  | .hbm, ⟨8, _⟩ => ⟨S_, .f32⟩
  | .hbm, ⟨9, _⟩ => ⟨S16384, .f32⟩
  | .hbm, ⟨10, _⟩ => ⟨S1x16384, .f32⟩
  | .hbm, ⟨11, _⟩ => ⟨S2048x16384, .f32⟩
  | .hbm, ⟨12, _⟩ => ⟨S2048x16384, .f32⟩
  | .hbm, ⟨13, _⟩ => ⟨S2048x16384, .f32⟩
  | .hbm, ⟨14, _⟩ => ⟨S2048x16384, .f32⟩
  | .hbm, ⟨15, _⟩ => ⟨S2048x16384, .f32⟩
  | .hbm, ⟨16, _⟩ => ⟨S_, .f32⟩
  | .hbm, ⟨17, _⟩ => ⟨S2048x16384, .f32⟩
  | .hbm, ⟨18, _⟩ => ⟨S2048x16384, .f32⟩
  | .hbm, ⟨19, _⟩ => ⟨S2048x16384, .f32⟩
  | .hbm, ⟨20, _⟩ => ⟨S2048x1, .i32⟩
  | .hbm, ⟨21, _⟩ => ⟨S_, .i32⟩
  | .hbm, ⟨22, _⟩ => ⟨S2048x1, .i32⟩
  | .hbm, ⟨23, _⟩ => ⟨S2048x1, .i1⟩
  | .hbm, ⟨24, _⟩ => ⟨S_, .i32⟩
  | .hbm, ⟨25, _⟩ => ⟨S2048x1, .i32⟩
  | .hbm, ⟨26, _⟩ => ⟨S2048x1, .i32⟩
  | .hbm, ⟨27, _⟩ => ⟨S2048x1, .i32⟩
  | .hbm, ⟨28, _⟩ => ⟨S2048x1x1, .i32⟩
  | .hbm, ⟨29, _⟩ => ⟨S1, .i32⟩
  | .hbm, ⟨30, _⟩ => ⟨S_, .i32⟩
  | .hbm, ⟨31, _⟩ => ⟨S2048x1x1, .i32⟩
  | .hbm, ⟨32, _⟩ => ⟨S2048x1x1, .i1⟩
  | .hbm, ⟨33, _⟩ => ⟨S1x1x1, .i32⟩
  | .hbm, ⟨34, _⟩ => ⟨S2048x1x1, .i32⟩
  | .hbm, ⟨35, _⟩ => ⟨S2048x1x1, .i1⟩
  | .hbm, ⟨36, _⟩ => ⟨S2048x1x1, .i1⟩
  | .hbm, ⟨37, _⟩ => ⟨S_, .i1⟩
  | .hbm, ⟨38, _⟩ => ⟨S2048x1, .i1⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S2048, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S2048, .f32⟩
  | .hbm, ⟨48, _⟩ => ⟨S2048, .f32⟩
  | .hbm, ⟨49, _⟩ => ⟨S_, .f32⟩
  | .hbm, ⟨50, _⟩ => ⟨S2048, .f32⟩
  | .hbm, ⟨51, _⟩ => ⟨S2048, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_cst : Ref sig .tc := ⟨.hbm, 40, rfl⟩
abbrev main_call0_v14 : Ref sig .tc := ⟨.hbm, 41, rfl⟩
abbrev main_v15 : Ref sig .tc := ⟨.hbm, 42, rfl⟩
abbrev main_v16 : Ref sig .tc := ⟨.hbm, 43, rfl⟩
abbrev main_cst_2 : Ref sig .tc := ⟨.hbm, 44, rfl⟩
abbrev main_cst_3 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_v17 : Ref sig .tc := ⟨.hbm, 51, rfl⟩
abbrev main_cst_4 : Ref sig .tc := ⟨.hbm, 52, rfl⟩
abbrev main_v18 : Ref sig .tc := ⟨.hbm, 53, rfl⟩
abbrev main_cst_5 : Ref sig .tc := ⟨.hbm, 54, rfl⟩
abbrev main_v19 : Ref sig .tc := ⟨.hbm, 55, rfl⟩

abbrev nD : Nat := 1
abbrev τ : Topo := Topo.v7x

variable {F : FTy → Type} [FloatOps F]

class Facts₀ : Prop where
  reducesTo_S2048x2048_S2048_d1 : S2048x2048.ReducesTo [1] S2048
  h_S_ : 0 < S_.numel
  bcast_S2048_S2048x1_0 : S2048.BroadcastsInDim S2048x1 (![0] : Fin 1 → Fin S2048x1.rank)
  reducesTo_S16384x2048_S16384_d1 : S16384x2048.ReducesTo [1] S16384
  bcast_S16384_S1x16384_1 : S16384.BroadcastsInDim S1x16384 (![1] : Fin 1 → Fin S1x16384.rank)
  bcast_S2048x1_S2048x16384_0_1 : S2048x1.BroadcastsInDim S2048x16384 (![0, 1] : Fin 2 → Fin S2048x16384.rank)
  bcast_S1x16384_S2048x16384_0_1 : S1x16384.BroadcastsInDim S2048x16384 (![0, 1] : Fin 2 → Fin S2048x16384.rank)
  transposes_S16384x2048_S2048x16384_1_0 : S16384x2048.Transposes [1, 0] S2048x16384
  bcast_S_S2048x16384 : S_.BroadcastsInDim S2048x16384 (![] : Fin 0 → Fin S2048x16384.rank)
  bcast_S_S2048x1 : S_.BroadcastsInDim S2048x1 (![] : Fin 0 → Fin S2048x1.rank)
  shapeCasts_S2048x1_S2048x1x1 : S2048x1.ShapeCasts S2048x1x1
  bcast_S_S2048x1x1 : S_.BroadcastsInDim S2048x1x1 (![] : Fin 0 → Fin S2048x1x1.rank)
  bcast_S1_S1x1x1_2 : S1.BroadcastsInDim S1x1x1 (![2] : Fin 1 → Fin S1x1x1.rank)
  bcast_S1x1x1_S2048x1x1_0_1_2 : S1x1x1.BroadcastsInDim S2048x1x1 (![0, 1, 2] : Fin 3 → Fin S2048x1x1.rank)
  reducesTo_S2048x1x1_S2048x1_d2 : S2048x1x1.ReducesTo [2] S2048x1
  shapeCasts_S2048x1_S2048 : S2048x1.ShapeCasts S2048
  bcast_S_S2048 : S_.BroadcastsInDim S2048 (![] : Fin 0 → Fin S2048.rank)
  reducesTo_S2048_S_d0 : S2048.ReducesTo [0] S_
  dot_S2048x2048_S2048x16384_S2048x16384_1_0_0_1_n_n_wf : DotDims.WF S2048x2048 S2048x16384 S2048x16384 [1] [0] [0] [1] [] []
  gather_S2048x16384_S2048x1x1_S2048x1_n_1_0_0_1_2_11_wf : GatherDims.WF S2048x16384 S2048x1x1 S2048x1 [] [1] [0] [1] [0] 2 ![1, 1]

variable [Facts₀]

def dot_S2048x2048_S2048x16384_S2048x16384_1_0_0_1_n_n : DotDims S2048x2048 S2048x16384 S2048x16384 where
  lhsContracting := [1]
  rhsContracting := [0]
  lhsNonContracting := [0]
  rhsNonContracting := [1]
  lhsBatch := []
  rhsBatch := []
  wf := dot_S2048x2048_S2048x16384_S2048x16384_1_0_0_1_n_n_wf
def gather_S2048x16384_S2048x1x1_S2048x1_n_1_0_0_1_2_11 : GatherDims S2048x16384 S2048x1x1 S2048x1 where
  offsetDims := []
  collapsedSliceDims := [1]
  operandBatchingDims := [0]
  startIndicesBatchingDims := [0]
  startIndexMap := [1]
  indexVectorDim := 2
  sliceSizes := ![1, 1]
  wf := gather_S2048x16384_S2048x1x1_S2048x1_n_1_0_0_1_2_11_wf

class Facts : Prop extends Facts₀ where

variable [Facts]
-- ==== Proof.Pieces.lean ====
/-
  What one grid point of the kernel leaves behind, as pure functions of what it read.

  The kernel keeps a running column `acc` (512 rows, one per row of the current x tile) in a scratch buffer across the
  32 column tiles of one row tile. At a point it (first column tile only) resets the column to zero, then adds to it
  the tile's contribution `tileStep`, and (last column tile only) writes the clipped column to the output block.
  Here each case's stored values, found as lists of written pieces, are read back as those functions:
    first column tile :  acc' = step(0-column),
    middle            :  acc' = step(acc),
    last              :  acc' = step(acc),  out = clip(acc').
-/
import proofs.«418559_j8297876815993_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Tile

open Cert.KernelIdeal Cert.KernelIdeal.Gen

variable {F : FTy → Type} [FloatOps F]

theorem origin2 : (![0, 0] : Fin 2 → Nat) = fun _ => 0 := funext fun a => by fin_cases a <;> rfl
theorem origin1 : (![0] : Fin 1 → Nat) = fun _ => 0 := funext fun a => by fin_cases a; rfl

/-- The running column after one point, from the two input tiles, the labels of the row tile and the column before:
    the column before plus the tile's masked row sums. -/
abbrev step (i : grid0.Coords) (x0 x1 : Vec F S512x2048 .f32) (x2 : Vec F S512 .i32) (acc : Vec F S512x1 .f32) :
    Vec F S512x1 .f32 :=
  k0_pay1 (k0_pay4 i x0 x1 x2 acc)

/-- First column tile: the column is reset to zero, read back, and stepped. -/
theorem scratch_first (c : Dev nD) (i : grid0.Coords) (a2 : Memref sig .tc .vmem S512x2048 .f32) (h2 : a2.IsWhole)
    (a3 : Memref sig .tc .vmem S512x2048 .f32) (h3 : a3.IsWhole) (a4 : Memref sig .tc .vmem S512 .i32) (h4 : a4.IsWhole)
    (a5 : Memref sig .tc .vmem S512x1 .f32) (h5 : a5.IsWhole) (a6 : Memref sig .tc .vmem S512x1 .f32) (h6 : a6.IsWhole)
    (hc0 : cond0_0 i) (hc1 : ¬cond0_1 i) (x0 x1 : Vec F S512x2048 .f32) (x2 : Vec F S512 .i32) :
    sout0_A_0 c i a2 h2 a3 h3 a4 h4 a5 h5 a6 h6 hc0 hc1 x0 x1 x2 = step i x0 x1 x2 (k0_pay3 (F := F)) := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S512x1) origin2, View.readCov_unit_zero (S := S512x1) _ origin2]
  simp only [View.readAt_eq_ld, h2.read_unread, h3.read_unread, h4.read_unread, View.ld_unit_zero (S := S512x2048) origin2,
    View.ld_unit_zero (S := S512x1) origin2, View.ld_unit_zero (S := S512) origin1, View.readCov_unit_zero (S := S512x1) _ origin2]

/-- A middle column tile: the column the point before left is stepped. -/
theorem scratch_middle (c : Dev nD) (i : grid0.Coords) (a2 : Memref sig .tc .vmem S512x2048 .f32) (h2 : a2.IsWhole)
    (a3 : Memref sig .tc .vmem S512x2048 .f32) (h3 : a3.IsWhole) (a4 : Memref sig .tc .vmem S512 .i32) (h4 : a4.IsWhole)
    (a5 : Memref sig .tc .vmem S512x1 .f32) (h5 : a5.IsWhole) (a6 : Memref sig .tc .vmem S512x1 .f32) (h6 : a6.IsWhole)
    (hc0 : ¬cond0_0 i) (hc1 : ¬cond0_1 i) (x0 x1 : Vec F S512x2048 .f32) (x2 : Vec F S512 .i32) (acc : Vec F S512x1 .f32) :
    sout0_B_0 c i a2 h2 a3 h3 a4 h4 a5 h5 a6 h6 hc0 hc1 x0 x1 x2 acc = step i x0 x1 x2 acc := by
  unfold sout0_B_0
  rw [View.read_writes_eq_canon _ _ _ (scover0_B_0 c i a2 h2 a3 h3 a4 h4 a5 h5 a6 h6 hc0 hc1 x0 x1 x2 acc)]
  unfold kernelRun0_B
  dsimp only
  sl_unfold_words
  rw [View.canon_unit_zero origin2]
  simp only [View.readAt_eq_ld, h2.read_unread, h3.read_unread, h4.read_unread, h6.read_unread, View.ld_unit_zero (S := S512x2048) origin2,
    View.ld_unit_zero (S := S512x1) origin2, View.ld_unit_zero (S := S512) origin1]

/-- The last column tile: the column is stepped likewise, -/
theorem scratch_last (c : Dev nD) (i : grid0.Coords) (a2 : Memref sig .tc .vmem S512x2048 .f32) (h2 : a2.IsWhole)
    (a3 : Memref sig .tc .vmem S512x2048 .f32) (h3 : a3.IsWhole) (a4 : Memref sig .tc .vmem S512 .i32) (h4 : a4.IsWhole)
    (a5 : Memref sig .tc .vmem S512x1 .f32) (h5 : a5.IsWhole) (a6 : Memref sig .tc .vmem S512x1 .f32) (h6 : a6.IsWhole)
    (hc0 : ¬cond0_0 i) (hc1 : cond0_1 i) (x0 x1 : Vec F S512x2048 .f32) (x2 : Vec F S512 .i32) (acc : Vec F S512x1 .f32) :
    sout0_C_0 c i a2 h2 a3 h3 a4 h4 a5 h5 a6 h6 hc0 hc1 x0 x1 x2 acc = step i x0 x1 x2 acc := by
  unfold sout0_C_0
  rw [View.read_writes_eq_canon _ _ _ (scover0_C_0 c i a2 h2 a3 h3 a4 h4 a5 h5 a6 h6 hc0 hc1 x0 x1 x2 acc)]
  unfold kernelRun0_C
  dsimp only
  sl_unfold_words
  rw [View.canon_unit_zero origin2]
  simp only [View.readAt_eq_ld, h2.read_unread, h3.read_unread, h4.read_unread, h6.read_unread, View.ld_unit_zero (S := S512x2048) origin2,
    View.ld_unit_zero (S := S512x1) origin2, View.ld_unit_zero (S := S512) origin1]

/-- and the output block receives the clipped new column (read back from the scratch it was just stored to). -/
theorem out_last (c : Dev nD) (i : grid0.Coords) (a2 : Memref sig .tc .vmem S512x2048 .f32) (h2 : a2.IsWhole)
    (a3 : Memref sig .tc .vmem S512x2048 .f32) (h3 : a3.IsWhole) (a4 : Memref sig .tc .vmem S512 .i32) (h4 : a4.IsWhole)
    (a5 : Memref sig .tc .vmem S512x1 .f32) (h5 : a5.IsWhole) (a6 : Memref sig .tc .vmem S512x1 .f32) (h6 : a6.IsWhole)
    (hc0 : ¬cond0_0 i) (hc1 : cond0_1 i) (x0 x1 : Vec F S512x2048 .f32) (x2 : Vec F S512 .i32) (acc : Vec F S512x1 .f32) :
    out0_C_3 c i a2 h2 a3 h3 a4 h4 a5 h5 a6 h6 hc0 hc1 x0 x1 x2 acc = k0_pay2 (step i x0 x1 x2 acc) := by
  unfold out0_C_3
  rw [View.read_writes_eq_canon _ _ _ (cover0_C_3 c i a2 h2 a3 h3 a4 h4 a5 h5 a6 h6 hc0 hc1 x0 x1 x2 acc)]
  unfold kernelRun0_C
  dsimp only
  sl_unfold_words
  rw [View.canon_unit_zero origin2]
  simp only [View.readAt_eq_ld, h2.read_unread, h3.read_unread, h4.read_unread, h6.read_unread, View.ld_unit_zero (S := S512x2048) origin2,
    View.ld_unit_zero (S := S512x1) origin2, View.ld_unit_zero (S := S512) origin1, View.readCov_unit_zero (S := S512x1) _ origin2]

end Cert.KernelIdeal.Tile

end
-- ==== Proof.Spec.lean ====
/-
  The center loss, as one function of the three argument arrays.

  For row b of x (2048 rows of 2048 features), the label l_b names one of 16384 centers (rows of cen). The
  squared distance of x_b to center n is expanded as  ‖x_b‖² + ‖c_n‖² − 2·⟨x_b, c_n⟩ ; the loss is the mean over the
  rows b of that distance at n = l_b, clipped into [1e-12, 1e12]. The three sums run over the 2048 features. The two
  clip bounds, the factor 2 and the divisor 2048 are kept as the binary words both programs carry.

  A label word is read as a natural number; a word that names no center (16384 or more) selects nothing and the
  row contributes the clipped zero — that is what a column-by-column comparison of the label against the 16384
  column numbers yields.
-/
import Idealize.ShloMosaic.PureOps.Ideal
import Idealize.ShloMosaic.PureOps.Ideal.Laws
import Idealize.ShloMosaic.Lib.ValueIdx

noncomputable section

namespace Cert.CenterLoss

open Idealize.ShloMosaic Idealize.ShloMosaic.ValueIdx
open scoped BigOperators

/-- x: 2048 rows of 2048 features. -/
abbrev XArr := (⟨2, ![2048, 2048]⟩ : Shape).Idx → EReal
/-- cen: 16384 centers of 2048 features. -/
abbrev CArr := (⟨2, ![16384, 2048]⟩ : Shape).Idx → EReal
/-- labels: one 32-bit word per row of x. -/
abbrev LArr := (⟨1, ![2048]⟩ : Shape).Idx → BitVec 32

/-- ‖x_b‖² + ‖c_n‖² − 2·⟨x_b, c_n⟩. -/
def sqdist (x : XArr) (cen : CArr) (b : Fin 2048) (n : Fin 16384) : EReal :=
  ((∑ k : Fin 2048, x (ix2 b k) * x (ix2 b k)) + ∑ k : Fin 2048, cen (ix2 n k) * cen (ix2 n k))
    - Ideal.ofBits .f32 0x40000000#32 * ∑ k : Fin 2048, x (ix2 b k) * cen (ix2 n k)

/-- The distance of row b to the center its label names; zero when the label names none. -/
def picked (lab : LArr) (x : XArr) (cen : CArr) (b : Fin 2048) : EReal :=
  if h : (lab (ix1 b)).toNat < 16384 then sqdist x cen b ⟨(lab (ix1 b)).toNat, h⟩ else 0

/-- Clipping into [1e-12, 1e12] (the two f32 words). -/
def clip (v : EReal) : EReal :=
  min (Ideal.ofBits .f32 0x5368D4A5#32) (max (Ideal.ofBits .f32 0x2B8CBCCC#32) v)

/-- The loss: the mean over the 2048 rows of the clipped picked distance, as a rank-0 array. -/
def loss (lab : LArr) (x : XArr) (cen : CArr) : (⟨0, ![]⟩ : Shape).Idx → EReal :=
  fun _ => Ideal.div (∑ b : Fin 2048, clip (picked lab x cen b)) (Ideal.ofBits .f32 0x45000000#32)

/-- Among n consecutive column numbers base, base+1, …, at most one equals a given number l: a sum of terms each
    guarded by "l is this column" is the one term at column l − base when l lies in the range, and zero otherwise. -/
theorem sum_guarded {n : ℕ} (f : Fin n → EReal) (l base : ℕ) :
    (∑ j : Fin n, if l = base + j.val then f j else 0)
      = if h : base ≤ l ∧ l < base + n then f ⟨l - base, by omega⟩ else 0 := by
  by_cases h : base ≤ l ∧ l < base + n
  · rw [dif_pos h]
    rw [Finset.sum_eq_single (⟨l - base, by omega⟩ : Fin n)]
    · rw [if_pos (by show l = base + (l - base); omega)]
    · intro j _ hj
      rw [if_neg]
      intro e
      exact hj (Fin.ext (by show j.val = l - base; omega))
    · intro hnot; exact absurd (Finset.mem_univ _) hnot
  · rw [dif_neg h]
    refine Finset.sum_eq_zero fun j _ => ?_
    rw [if_neg]
    intro e
    exact h ⟨by omega, by have := j.isLt; omega⟩

/-- The picked distance with the label's search cut off below a column bound: the distance when the label names a
    center numbered below `bound`, zero otherwise. Scanning the columns tile by tile raises the bound by 512 at a time. -/
def pickedBelow (lab : LArr) (x : XArr) (cen : CArr) (b : Fin 2048) (bound : ℕ) : EReal :=
  if h : (lab (ix1 b)).toNat < 16384 ∧ (lab (ix1 b)).toNat < bound then sqdist x cen b ⟨(lab (ix1 b)).toNat, h.1⟩ else 0

/-- Before any column has been scanned nothing is picked. -/
theorem pickedBelow_zero (lab : LArr) (x : XArr) (cen : CArr) (b : Fin 2048) : pickedBelow lab x cen b 0 = 0 := by
  unfold pickedBelow
  rw [dif_neg (by omega)]

/-- After all 16384 columns the cut-off is void. -/
theorem pickedBelow_all (lab : LArr) (x : XArr) (cen : CArr) (b : Fin 2048) :
    pickedBelow lab x cen b 16384 = picked lab x cen b := by
  unfold pickedBelow picked
  by_cases h : (lab (ix1 b)).toNat < 16384
  · rw [dif_pos ⟨h, h⟩, dif_pos h]
  · rw [dif_neg (fun hh => h hh.1), dif_neg h]

/-- Scanning column tile ci (columns 512·ci … 512·ci + 511): what was picked below the tile, plus the tile's guarded
    sum of its distances f j (the distance of row b to center 512·ci + j), is what is picked below the next tile.
    Only sums of one distance and zeros occur, so nothing is asked of the distances themselves. -/
theorem pickedBelow_step (lab : LArr) (x : XArr) (cen : CArr) (b : Fin 2048) (ci : ℕ) (hci : ci < 32) (f : Fin 512 → EReal)
    (hf : ∀ j : Fin 512, f j = sqdist x cen b ⟨ci * 512 + j.val, by have := j.isLt; omega⟩) :
    pickedBelow lab x cen b (ci * 512) + ∑ j : Fin 512, (if (lab (ix1 b)).toNat = ci * 512 + j.val then f j else 0)
      = pickedBelow lab x cen b ((ci + 1) * 512) := by
  rw [sum_guarded]
  unfold pickedBelow
  by_cases h1 : (lab (ix1 b)).toNat < ci * 512
  · have h16 : (lab (ix1 b)).toNat < 16384 := by omega
    rw [dif_pos ⟨h16, h1⟩, dif_neg (by omega), dif_pos ⟨h16, by omega⟩, add_zero]
  · by_cases h2 : (lab (ix1 b)).toNat < ci * 512 + 512
    · have h16 : (lab (ix1 b)).toNat < 16384 := by omega
      rw [dif_neg (by omega), dif_pos ⟨by omega, h2⟩, dif_pos ⟨h16, by omega⟩, zero_add, hf]
      congr 1
      exact Fin.ext (by show ci * 512 + ((lab (ix1 b)).toNat - ci * 512) = (lab (ix1 b)).toNat; omega)
    · rw [dif_neg (by omega), dif_neg (by omega), dif_neg (by omega), add_zero]

end Cert.CenterLoss

end
-- ==== Proof.LibMatmulPlain.lean ====
/-
  A plain matrix product on the extended reals, read at an entry.

  The dimension record of an M×K by K×N product (contract the left operand's axis 1 with the right operand's
  axis 0, no batch axis) is, whatever its well-formedness proof, the library's `DotDims.plain M K N`. At the ideal
  instance such a product into a zero accumulator is, at entry (i, j), the finite sum over q of l[i, q] · r[q, j]; with
  the right operand given as the transpose of an N×K matrix w, the sum over q of l[i, q] · w[j, q].
  The contraction index of the record is re-indexed to `Fin K` through the library's one-axis equivalence, and each
  operand index is identified coordinate by coordinate.
-/
import Idealize.ShloMosaic.PureOps.Ideal.Laws
import Idealize.ShloMosaic.Lib.ValueIdx
import Idealize.ShloMosaic.Lib.ValueLayout

namespace Cert.LibMatmulPlain

open Idealize.ShloMosaic Idealize.ShloMosaic.ValueIdx
open scoped BigOperators

variable {M K N : ℕ}

/-- The left operand's row coordinate is the result's row coordinate. -/
theorem lhs_plain_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left operand's column coordinate is the contraction index. -/
theorem lhs_plain_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction index. -/
theorem rhs_plain_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the result's column coordinate. -/
theorem rhs_plain_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- Entry (i, j) of l·r, accumulated into zero: the sum over q of l[i, q] · r[q, j]. -/
theorem matmul_plain_apply {φ₁ φ₂ : FTy} (l : FVec Ideal ⟨2, ![M, K]⟩ φ₁) (r : FVec Ideal ⟨2, ![K, N]⟩ φ₂) (i : Fin M) (j : Fin N) :
    matmul (DotDims.plain M K N) none l r (constant ⟨2, ![M, N]⟩ .f32 0x00000000#32) (ix2 i j)
      = ∑ q : Fin K, l (ix2 i q) * r (ix2 q j) := by
  simp only [matmul]
  rw [Ideal.matmul_constant_zero_apply, ← Equiv.sum_comp (contrEquiv1 (DotDims.plain M K N) K rfl rfl).symm]
  refine Finset.sum_congr rfl fun q _ => ?_
  have hq := contrEquiv1_symm_val (DotDims.plain M K N) K rfl rfl q
  have el : (DotDims.plain M K N).lhsIdx (ix2 i j) ((contrEquiv1 (DotDims.plain M K N) K rfl rfl).symm q) = ix2 i q :=
    funext fun a => Fin.ext (by
      match a with
      | ⟨0, _⟩ => exact lhs_plain_0 _ _
      | ⟨1, _⟩ => exact (lhs_plain_1 _ _).trans hq)
  have er : (DotDims.plain M K N).rhsIdx (ix2 i j) ((contrEquiv1 (DotDims.plain M K N) K rfl rfl).symm q) = ix2 q j :=
    funext fun a => Fin.ext (by
      match a with
      | ⟨0, _⟩ => exact (rhs_plain_0 _ _).trans hq
      | ⟨1, _⟩ => exact rhs_plain_1 _ _)
  rw [el, er]

/-- Entry (i, j) of l·wᵀ for an N×K matrix w: the sum over q of l[i, q] · w[j, q]. -/
theorem matmul_plain_transpose_apply {φ₁ φ₂ : FTy} (l : FVec Ideal ⟨2, ![M, K]⟩ φ₁) (w : FVec Ideal ⟨2, ![N, K]⟩ φ₂)
    (h : (⟨2, ![N, K]⟩ : Shape).Transposes [1, 0] ⟨2, ![K, N]⟩) (i : Fin M) (j : Fin N) :
    matmul (DotDims.plain M K N) none l (transpose ⟨2, ![K, N]⟩ [1, 0] w h) (constant ⟨2, ![M, N]⟩ .f32 0x00000000#32) (ix2 i j)
      = ∑ q : Fin K, l (ix2 i q) * w (ix2 j q) := by
  rw [matmul_plain_apply]
  exact Finset.sum_congr rfl fun q _ => by rw [transpose_ix2_apply]

end Cert.LibMatmulPlain
-- ==== Proof.LibKeepdims.lean ====
/-
  A reduced axis kept as a unit axis, read by coordinates: the two layout steps that carry a per-row quantity
  (a row's maximum, a row's sum) back over the row.

  * an [a] vector cast to a column [a, 1] reads, at (i, u), the vector at i (the unit coordinate u is 0);
  * a column [a, 1] broadcast along its unit axis to [a, b] reads, at (i, j), the column at (i, 0).

  Both are the library's general reading lemmas (a cast keeps the row-major position; a broadcast reads 0 on a unit
  axis) instantiated at these small shapes, with every index written by its coordinates.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.TileStep.lean ====
/-
  One grid point's contribution, entry by entry.

  At a point with column-tile number ci the kernel holds a 512-row tile x0 of x, a 512-row tile x1 of the centers and the
  512 labels x2 of the x rows. For row r it forms, for each of the tile's 512 columns j, the expanded squared distance
      d(r, j) = Σ_k x0[r,k]² + Σ_k x1[j,k]² − 2·Σ_k x0[r,k]·x1[j,k]
  (the product Σ_k x0[r,k]·x1[j,k] is a matrix product with the transposed center tile; the change of float format
  in front of it is the identity on extended reals), keeps it where the row's label equals the global column number
  512·ci + j and zero elsewhere, sums over j, and adds the sum to the running column.
-/
import proofs.«418559_j8297876815993_1_alg».proof.Proof.Pieces
import proofs.«418559_j8297876815993_1_alg».proof.Proof.Spec
import proofs.«418559_j8297876815993_1_alg».proof.Proof.LibMatmulPlain
import proofs.«418559_j8297876815993_1_alg».proof.Proof.LibKeepdims
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

noncomputable section

open Idealize.ShloMosaic Idealize.ShloMosaic.TcCoe Idealize.SL.Sem Idealize.ShloMosaic.ValueIdx
open scoped BigOperators

namespace Cert.KernelIdeal.Tile

open Cert.KernelIdeal Cert.KernelIdeal.Gen

/-- A sum along the rows of an [a, b] array (a lane reduction from the zero word), read at row r. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src ?_
  funext c
  refine Fin.ext ?_
  rw [h.lift_val]
  unfold Shape.Reduces.liftVal
  match c with
  | ⟨0, _⟩ => simp
  | ⟨1, _⟩ => simp

/-- The expanded squared distance between row r of the x tile and row j of the center tile. -/
def tdist (x0 x1 : FVec Ideal S512x2048 .f32) (r j : Fin 512) : EReal :=
  ((∑ k : Fin 2048, x0 (ix2 r k) * x0 (ix2 r k)) + ∑ k : Fin 2048, x1 (ix2 j k) * x1 (ix2 j k))
    - Ideal.ofBits .f32 0x40000000#32 * ∑ k : Fin 2048, x0 (ix2 r k) * x1 (ix2 j k)

/-- Column number 512·ci + j as a 32-bit word, for ci < 32 and j < 512 (no wrap-around). -/
theorem colWord (ci : ℕ) (hci : ci < 32) (j : Fin 512) :
    BitVec.ofNat 32 ci * 512#32 + BitVec.ofNat 32 j.val = BitVec.ofNat 32 (ci * 512 + j.val) := by
  apply BitVec.eq_of_toNat_eq
  have hj := j.isLt
  simp only [BitVec.toNat_add, BitVec.toNat_mul, BitVec.toNat_ofNat]
  omega

/-- A label word equals the word of a column number below 2³² exactly when its value is that number. -/
theorem word_eq_iff (w : BitVec 32) (n : ℕ) (hn : n < 2 ^ 32) : w = BitVec.ofNat 32 n ↔ w.toNat = n := by
  constructor
  · intro h; rw [h, BitVec.toNat_ofNat]; exact Nat.mod_eq_of_lt hn
  · intro h; apply BitVec.eq_of_toNat_eq; rw [h, BitVec.toNat_ofNat]; exact (Nat.mod_eq_of_lt hn).symm

/-- Entry (r, j) of the tile's distance matrix. -/
theorem dist_apply (x0 x1 : FVec Ideal S512x2048 .f32) (r j : Fin 512) :
    subf (addf (broadcastTo S512x512 (shapeCast S512x1 (multiReduction .add [1] S512 (mulf x0 x0) 0x00000000#32 reduces_S512x2048_S512 (.inl rfl) rfl) shapeCasts_S512_S512x1) broadcasts_S512x1_S512x512)
        (broadcastTo S512x512 (transpose S1x512 [1, 0] (shapeCast S512x1 (multiReduction .add [1] S512 (mulf x1 x1) 0x00000000#32 reduces_S512x2048_S512 (.inl rfl) rfl) shapeCasts_S512_S512x1) transposes_S512x1_p1_0_S1x512) broadcasts_S1x512_S512x512))
      (mulf (broadcast S512x512 (Scalar.ofBits (F := Ideal) .f32 0x40000000#32))
        (matmul dot_S512x2048_S2048x512_S512x512_1_0_0_1_n_n none (truncf .bf16 x0 bitsLt_bf16_f32)
          (transpose S2048x512 [1, 0] (truncf .bf16 x1 bitsLt_bf16_f32) transposes_S512x2048_p1_0_S2048x512) (constant S512x512 .f32 0x00000000#32)))
      (ix2 r j) = tdist x0 x1 r j := by
  rw [subf_apply, addf_apply, mulf_apply, broadcast_apply]
  rw [LibKeepdims.broadcastTo_a1_ab_apply, LibKeepdims.shapeCast_a_a1_apply, broadcastTo_1b_ab_apply, transpose_ix2_apply,
    LibKeepdims.shapeCast_a_a1_apply]
  unfold tdist
  refine congrArg₂ (· - ·) (congrArg₂ (· + ·) ?_ ?_) (congrArg₂ (· * ·) rfl ?_)
  · exact (rowSum_apply (mulf x0 x0) _ reduces_S512x2048_S512 _ _ r).trans (Finset.sum_congr rfl fun k _ => rfl)
  · exact (rowSum_apply (mulf x1 x1) _ reduces_S512x2048_S512 _ _ j).trans (Finset.sum_congr rfl fun k _ => rfl)
  · exact (Cert.LibMatmulPlain.matmul_plain_transpose_apply (M := 512) (K := 2048) (N := 512) (truncf .bf16 x0 bitsLt_bf16_f32)
      (truncf .bf16 x1 bitsLt_bf16_f32) transposes_S512x2048_p1_0_S2048x512 r j).trans (Finset.sum_congr rfl fun k _ => rfl)

/-- Entry (r, j) of the mask: the row's label against the global column number of tile column j. -/
theorem mask_apply (ci : ℕ) (hci : ci < 32) (x2 : IVec S512 32) (r j : Fin 512) :
    cmpi .eq (broadcastTo S512x512 (shapeCast S512x1 x2 shapeCasts_S512_S512x1) broadcasts_S512x1_S512x512)
        (broadcastTo S512x512 (addi (broadcast S1x512 (Scalar.muli (BitVec.ofNat 32 ci) 512#32)) (iota .tc S1x512 32 [1] iota_S1x512_d1_w32))
          broadcasts_S1x512_S512x512) (ix2 r j)
      = BitVec.ofBool (decide ((x2 (ix1 r)).toNat = ci * 512 + j.val)) := by
  show IntOp.cmpi .eq _ _ = _
  rw [LibKeepdims.broadcastTo_a1_ab_apply, LibKeepdims.shapeCast_a_a1_apply, broadcastTo_1b_ab_apply]
  show IntOp.cmpi .eq (x2 (ix1 r)) (IntOp.addi (Scalar.muli (BitVec.ofNat 32 ci) 512#32) (iota .tc S1x512 32 [1] iota_S1x512_d1_w32 (ix2 (0 : Fin 1) j))) = _
  rw [iota_single_apply]
  show BitVec.ofBool (x2 (ix1 r) == BitVec.ofNat 32 ci * 512#32 + BitVec.ofNat 32 j.val) = _
  rw [colWord ci hci j]
  congr 1
  have hj := j.isLt
  rw [Bool.eq_iff_iff, beq_iff_eq, decide_eq_true_iff]
  exact word_eq_iff _ _ (by omega)

/-- The running column after one point, at row r: the column before plus, over the tile's 512 columns, the distance
    at the column the row's label names (if it is one of these) and zero at the others. -/
theorem step_apply (i : grid0.Coords) (x0 x1 : FVec Ideal S512x2048 .f32) (x2 : IVec S512 32) (acc : FVec Ideal S512x1 .f32)
    (r : Fin 512) :
    step (F := Ideal) i x0 x1 x2 acc (ix2 r (0 : Fin 1))
      = acc (ix2 r 0) + ∑ j : Fin 512, (if (x2 (ix1 r)).toNat = (i 1).val * 512 + j.val then tdist x0 x1 r j else 0) := by
  have hci : (i 1).val < 32 := (i 1).isLt
  unfold step k0_pay1 k0_pay4
  dsimp only
  rw [shapeCast_self, addf_apply]
  congr 1
  rw [LibKeepdims.shapeCast_a_a1_apply]
  refine (rowSum_apply _ _ reduces_S512x512_S512 _ _ r).trans ?_
  refine Finset.sum_congr rfl fun j _ => ?_
  rw [select_apply, mask_apply (i 1).val hci x2 r j, dist_apply x0 x1 r j, broadcast_apply]
  by_cases h : (x2 (ix1 r)).toNat = (i 1).val * 512 + j.val
  · rw [if_pos h, decide_eq_true h]; exact select_one _ _
  · rw [if_neg h, decide_eq_false h]
    exact (select_zero _ _).trans Ideal.ofBits_zero_f32

/-- The reset column is zero at every row. -/
theorem zeroCol_apply (y : S512x1.Idx) : (k0_pay3 (F := Ideal)) y = 0 := by
  unfold k0_pay3
  rw [shapeCast_self]
  exact Ideal.ofBits_zero_f32

/-- The output block is the clipped column, row by row. -/
theorem clipCol_apply (v : FVec Ideal S512x1 .f32) (y : S512x1.Idx) : k0_pay2 (F := Ideal) v y = Cert.CenterLoss.clip (v y) := rfl

end Cert.KernelIdeal.Tile

end
-- ==== Proof.Column.lean ====
/-
  The running column across the grid.

  Grid point n (0 ≤ n < 128) works on row tile n / 32 and column tile n % 32. Its x tile holds rows 512·(n/32) + r of x,
  its center tile holds centers 512·(n%32) + j, its labels are those of the same rows of x. So the tile's distance
  d(r, j) is the distance of row 512·(n/32) + r to center 512·(n%32) + j, and the running column after point n holds, at
  row r, the distance to the labelled center if that center is numbered below 512·(n%32 + 1), and zero otherwise:
  the reset at column tile 0 starts from "nothing scanned", and each point scans 512 more columns.
-/
import proofs.«418559_j8297876815993_1_alg».proof.Proof.TileStep

noncomputable section

open Idealize.ShloMosaic Idealize.ShloMosaic.TcCoe Idealize.SL.Sem Idealize.ShloMosaic.ValueIdx
open scoped BigOperators

namespace Cert.KernelIdeal.Tile

open Cert.KernelIdeal Cert.KernelIdeal.Gen Cert.CenterLoss

variable (m : (ℓ : Loc nD τ sig) → Buf (Elt Ideal) ℓ)

/-- The three argument arrays as the region finds them, -/
abbrev xarr (c : Dev nD) : XArr := V m c main_arg0
abbrev carr (c : Dev nD) : CArr := V m c main_arg2
abbrev larr (c : Dev nD) : LArr := V m c main_arg1
/-- and the three input tiles of a grid point. -/
abbrev xblk (c : Dev nD) (t : Fin cfg0.N) : FVec Ideal S512x2048 .f32 := iblk m c 0 t
abbrev cblk (c : Dev nD) (t : Fin cfg0.N) : FVec Ideal S512x2048 .f32 := iblk m c 1 t
abbrev lblk (c : Dev nD) (t : Fin cfg0.N) : IVec S512 32 := iblk m c 2 t

/-- Row r of the row tile of point n, as a row of x. -/
def row (n : ℕ) (r : Fin 512) : Fin 2048 := ⟨n / 32 % 4 * 512 + r.val, by have := r.isLt; omega⟩
/-- Column j of the column tile of point n, as a center number. -/
def col (n : ℕ) (j : Fin 512) : Fin 16384 := ⟨n % 32 * 512 + j.val, by have := j.isLt; omega⟩

/-- Which block each window reads at a grid point, and the point's column-tile number: decided over the 128 points. -/
theorem idx_facts : ∀ t : Fin cfg0.N,
    win0_0.index t 0 = t.val / 32 ∧ win0_0.index t 1 = 0 ∧ win0_1.index t 0 = t.val % 32 ∧ win0_1.index t 1 = 0
      ∧ win0_2.index t 0 = t.val / 32 ∧ win0_3.index t 0 = t.val / 32 ∧ win0_3.index t 1 = 0
      ∧ (grid0.coords t 1).val = t.val % 32 :=
  (by decide +kernel : ∀ t : Fin grid0.N,
    win0_0.index t 0 = t.val / 32 ∧ win0_0.index t 1 = 0 ∧ win0_1.index t 0 = t.val % 32 ∧ win0_1.index t 1 = 0
      ∧ win0_2.index t 0 = t.val / 32 ∧ win0_3.index t 0 = t.val / 32 ∧ win0_3.index t 1 = 0
      ∧ (grid0.coords t 1).val = t.val % 32)

theorem xblk_apply (c : Dev nD) (t : Fin cfg0.N) (r : Fin 512) (k : Fin 2048) :
    xblk m c t (ix2 r k) = xarr m c (ix2 (row t.val r) k) := by
  have hN : t.val < 128 := lt_of_lt_of_eq t.isLt N_0
  unfold xblk iblk
  rw [View.read_apply]
  show V m c main_arg0 _ = V m c main_arg0 _
  congr 1
  funext a
  apply Fin.ext
  match a with
  | ⟨0, _⟩ =>
    show win0_0.index t 0 * 512 + 1 * r.val = t.val / 32 % 4 * 512 + r.val
    rw [(idx_facts t).1]; omega
  | ⟨1, _⟩ =>
    show win0_0.index t 1 * 2048 + 1 * k.val = k.val
    rw [(idx_facts t).2.1]; omega

theorem cblk_apply (c : Dev nD) (t : Fin cfg0.N) (j : Fin 512) (k : Fin 2048) :
    cblk m c t (ix2 j k) = carr m c (ix2 (col t.val j) k) := by
  unfold cblk iblk
  rw [View.read_apply]
  show V m c main_arg2 _ = V m c main_arg2 _
  congr 1
  funext a
  apply Fin.ext
  match a with
  | ⟨0, _⟩ =>
    show win0_1.index t 0 * 512 + 1 * j.val = t.val % 32 * 512 + j.val
    rw [(idx_facts t).2.2.1]; omega
  | ⟨1, _⟩ =>
    show win0_1.index t 1 * 2048 + 1 * k.val = k.val
    rw [(idx_facts t).2.2.2.1]; omega

theorem lblk_apply (c : Dev nD) (t : Fin cfg0.N) (r : Fin 512) :
    lblk m c t (ix1 r) = larr m c (ix1 (row t.val r)) := by
  have hN : t.val < 128 := lt_of_lt_of_eq t.isLt N_0
  unfold lblk iblk
  rw [View.read_apply]
  show V m c main_arg1 _ = V m c main_arg1 _
  congr 1
  funext a
  apply Fin.ext
  match a with
  | ⟨0, _⟩ =>
    show win0_2.index t 0 * 512 + 1 * r.val = t.val / 32 % 4 * 512 + r.val
    rw [(idx_facts t).2.2.2.2.1]; omega

/-- The tile's distance is the distance between the corresponding row of x and center. -/
theorem tdist_blk (c : Dev nD) (t : Fin cfg0.N) (r j : Fin 512) :
    tdist (xblk m c t) (cblk m c t) r j = sqdist (xarr m c) (carr m c) (row t.val r) (col t.val j) := by
  unfold tdist sqdist
  simp only [xblk_apply, cblk_apply]

/-- One point: if the column before holds what is picked below this column tile, the column after holds what is
    picked below the next. -/
theorem step_column (c : Dev nD) (t : Fin cfg0.N) (acc : FVec Ideal S512x1 .f32) (r : Fin 512)
    (hacc : acc (ix2 r (0 : Fin 1)) = pickedBelow (larr m c) (xarr m c) (carr m c) (row t.val r) (t.val % 32 * 512)) :
    step (F := Ideal) (grid0.coords t) (xblk m c t) (cblk m c t) (lblk m c t) acc (ix2 r (0 : Fin 1))
      = pickedBelow (larr m c) (xarr m c) (carr m c) (row t.val r) ((t.val % 32 + 1) * 512) := by
  refine (step_apply (grid0.coords t) (xblk m c t) (cblk m c t) (lblk m c t) acc r).trans ?_
  rw [hacc, lblk_apply, (idx_facts t).2.2.2.2.2.2.2]
  exact pickedBelow_step _ _ _ _ (t.val % 32) (Nat.mod_lt _ (by decide)) _ (fun j => tdist_blk m c t r j)

/-- THE RUNNING COLUMN after point n, at row r: the distance of row 512·(n/32) + r to its labelled center when that
    center is numbered below 512·(n%32 + 1), zero otherwise — by induction on the point. -/
theorem column_eq (c : Dev nD) (n : ℕ) : ∀ (hn : n < cfg0.N) (r : Fin 512),
    (outsAt0 m c n hn).2 (ix2 r (0 : Fin 1))
      = pickedBelow (larr m c) (xarr m c) (carr m c) (row n r) ((n % 32 + 1) * 512) := by
  induction n using Nat.strong_induction_on with
  | _ n ih =>
    intro hn r
    have hN : n < 128 := lt_of_lt_of_eq hn N_0
    by_cases h0 : n % 32 = 0
    · have h1 : ¬n % 32 = 31 := by omega
      rw [outsAt0_A m c ⟨n, hn⟩ h0 h1]
      dsimp only
      refine (congrFun (scratch_first (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _)
        ((hcond0_0 ⟨n, hn⟩).mpr h0) (fun h => h1 ((hcond0_1 ⟨n, hn⟩).mp h)) (xblk m c ⟨n, hn⟩) (cblk m c ⟨n, hn⟩) (lblk m c ⟨n, hn⟩)) (ix2 r 0)).trans ?_
      refine step_column m c ⟨n, hn⟩ _ r ?_
      rw [zeroCol_apply]
      show (0 : EReal) = pickedBelow _ _ _ _ (n % 32 * 512)
      rw [h0, Nat.zero_mul, pickedBelow_zero]
    · have hpos : 0 < n := by omega
      have hprev : (outsAt0 m c (n - 1) (by omega)).2 (ix2 r (0 : Fin 1))
          = pickedBelow (larr m c) (xarr m c) (carr m c) (row n r) (n % 32 * 512) := by
        rw [ih (n - 1) (by omega) (by omega) r]
        have e1 : row (n - 1) r = row n r := Fin.ext (by show (n - 1) / 32 % 4 * 512 + r.val = n / 32 % 4 * 512 + r.val; omega)
        have e2 : (n - 1) % 32 + 1 = n % 32 := by omega
        rw [e1, e2]
      by_cases h1 : n % 32 = 31
      · rw [outsAt0_C m c ⟨n, hn⟩ h0 h1]
        dsimp only
        refine (congrFun (scratch_last (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _)
          (fun h => h0 ((hcond0_0 ⟨n, hn⟩).mp h)) ((hcond0_1 ⟨n, hn⟩).mpr h1) (xblk m c ⟨n, hn⟩) (cblk m c ⟨n, hn⟩) (lblk m c ⟨n, hn⟩)
          (outsAt0 m c (n - 1) (by omega)).2) (ix2 r 0)).trans ?_
        exact step_column m c ⟨n, hn⟩ _ r hprev
      · rw [outsAt0_B m c ⟨n, hn⟩ h0 h1]
        dsimp only
        refine (congrFun (scratch_middle (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _)
          (fun h => h0 ((hcond0_0 ⟨n, hn⟩).mp h)) (fun h => h1 ((hcond0_1 ⟨n, hn⟩).mp h)) (xblk m c ⟨n, hn⟩) (cblk m c ⟨n, hn⟩) (lblk m c ⟨n, hn⟩)
          (outsAt0 m c (n - 1) (by omega)).2) (ix2 r 0)).trans ?_
        exact step_column m c ⟨n, hn⟩ _ r hprev

end Cert.KernelIdeal.Tile

end
-- ==== Proof.KernelValue.lean ====
/-
  The kernel's run, read as values.

  The output block of row tile q is written back once, after the last column tile (point 32·q + 31), and holds the
  clipped running column, which by then has scanned all 16384 columns: row r of it is the clipped distance of row
  512·q + r of x to its labelled center. The four row tiles cover the [2048, 1] result array. The host lines after the
  kernel sum that array and divide by 2048: the loss.
-/
import proofs.«418559_j8297876815993_1_alg».proof.Proof.Column
import Idealize.ShloMosaic.Lib.StableHlo.Run

noncomputable section

open Idealize.ShloMosaic Idealize.ShloMosaic.TcCoe Idealize.SL.Sem Idealize.ShloMosaic.ValueIdx
open Idealize.ShloMosaic.Pipeline (Dat)
open scoped BigOperators

namespace Cert.KernelIdeal.Tile

open Cert.KernelIdeal Cert.KernelIdeal.Gen Cert.CenterLoss

variable (m : (ℓ : Loc nD τ sig) → Buf (Elt Ideal) ℓ) (ρ : Dev nD → PrngReg)

/-- What the kernel's result array ends holding: per row of x, the clipped distance to its labelled center. -/
def outArr (c : Dev nD) : Buf (Elt Ideal) ((c : Thread nD τ).loc main_v0) :=
  fun y => clip (picked (larr m c) (xarr m c) (carr m c) ⟨(y 0).val, idx2_lt0 y⟩)

/-- Before a point that is not the first of its row tile, the running column holds what is picked below the point's
    column tile. -/
theorem column_before (c : Dev nD) (t : Fin cfg0.N) (h0 : ¬t.val % 32 = 0) (r : Fin 512) :
    (outsAt0 m c (t.val - 1) (Nat.lt_of_le_of_lt (Nat.sub_le _ _) t.isLt)).2 (ix2 r (0 : Fin 1))
      = pickedBelow (larr m c) (xarr m c) (carr m c) (row t.val r) (t.val % 32 * 512) := by
  have hN : t.val < 128 := lt_of_lt_of_eq t.isLt N_0
  rw [column_eq m c (t.val - 1) _ r]
  have e1 : row (t.val - 1) r = row t.val r :=
    Fin.ext (by show (t.val - 1) / 32 % 4 * 512 + r.val = t.val / 32 % 4 * 512 + r.val; omega)
  have e2 : (t.val - 1) % 32 + 1 = t.val % 32 := by omega
  rw [e1, e2]

/-- WHAT A WRITE-BACK WRITES: at the last column tile of a row tile, that row tile's block of `outArr`. -/
theorem flushed_eq (c : Dev nD) (t : Fin cfg0.N) (hf : (cfg0.win 3).flush t = true) :
    (dats m 0 c).flushed 3 t = ((cfg0.win 3).blk t).view.read (Elt Ideal) (outArr m c) := by
  have h31 : t.val % 32 = 31 := (flush0_3 t).mp hf
  have h0 : ¬t.val % 32 = 0 := by omega
  have hN : t.val < 128 := lt_of_lt_of_eq t.isLt N_0
  show (cfg0.win 3).cut (grid0.coords t) ((dats m 0 c).after 3 t) = _
  rw [after0_3, outsAt0_C m c t h0 h31]
  dsimp only
  refine (congrArg ((cfg0.win 3).cut (grid0.coords t)) (out_last (F := Ideal) c (grid0.coords t) (ms0_0 t) (hs0_0 t) (ms0_1 t) (hs0_1 t) (ms0_2 t) (hs0_2 t) (ms0_3 t) (hs0_3 t) scM0_0 (Memref.isWhole_whole _)
    (fun h => h0 ((hcond0_0 t).mp h)) ((hcond0_1 t).mpr h31) (xblk m c t) (cblk m c t) (lblk m c t)
    (outsAt0 m c (t.val - 1) (Nat.lt_of_le_of_lt (Nat.sub_le _ _) t.isLt)).2)).trans ?_
  funext y
  rw [View.read_apply]
  obtain ⟨r, u, rfl⟩ : ∃ (r : Fin 512) (u : Fin 1), y = ix2 r u := ⟨y 0, y 1, eq_ix2 y⟩
  obtain rfl : u = 0 := Subsingleton.elim _ _
  -- both sides are the clipped picked distance of row 512·(t/32) + r
  refine Eq.trans (b := clip (picked (larr m c) (xarr m c) (carr m c) (row t.val r))) ?_ ?_
  · show k0_pay2 (F := Ideal) (step (F := Ideal) (grid0.coords t) (xblk m c t) (cblk m c t) (lblk m c t)
      (outsAt0 m c (t.val - 1) (Nat.lt_of_le_of_lt (Nat.sub_le _ _) t.isLt)).2) (ix2 r (0 : Fin 1)) = _
    rw [clipCol_apply, step_column m c t _ r (column_before m c t h0 r), h31]
    show clip (pickedBelow _ _ _ _ 16384) = _
    rw [pickedBelow_all]
  · unfold outArr
    simp only [cast_eq]
    refine congrArg clip (congrArg (picked (larr m c) (xarr m c) (carr m c)) (Fin.ext ?_))
    show t.val / 32 % 4 * 512 + r.val = win0_3.index t 0 * 512 + 1 * r.val
    rw [(idx_facts t).2.2.2.2.2.1]; omega

/-- The four write-backs cover the result array: row b lies in the block written at the last point, 32·(b / 512) + 31,
    of its row tile. -/
def lastPoint (b : ℕ) (hb : b < 2048) : Fin cfg0.N := ⟨b / 512 * 32 + 31, by rw [show cfg0.N = 128 from N_0]; omega⟩

theorem covered (c : Dev nD) (i : S2048x1.Idx) :
    ∃ t : Fin cfg0.N, (cfg0.win 3).flush t = true ∧ i ∈ ((cfg0.win 3).blk t).view.set := by
  have hi0 : (i 0).val < 2048 := (i 0).isLt
  have hi1 : (i 1).val < 1 := (i 1).isLt
  refine ⟨lastPoint (i 0).val hi0, (flush0_3 _).mpr (by show ((i 0).val / 512 * 32 + 31) % 32 = 31; omega), ?_⟩
  show i ∈ ((View.whole main_v0).slice (win0_3.rect (lastPoint (i 0).val hi0))).set
  rw [View.set_slice_whole, Rect.mem_set_unit]
  intro a
  match a with
  | ⟨0, _⟩ =>
    show win0_3.index (lastPoint (i 0).val hi0) 0 * 512 ≤ (i 0).val ∧ (i 0).val < win0_3.index (lastPoint (i 0).val hi0) 0 * 512 + 512
    rw [(idx_facts (lastPoint (i 0).val hi0)).2.2.2.2.2.1]
    show ((i 0).val / 512 * 32 + 31) / 32 * 512 ≤ (i 0).val ∧ (i 0).val < ((i 0).val / 512 * 32 + 31) / 32 * 512 + 512
    omega
  | ⟨1, _⟩ =>
    show win0_3.index (lastPoint (i 0).val hi0) 1 * 1 ≤ (i 1).val ∧ (i 1).val < win0_3.index (lastPoint (i 0).val hi0) 1 * 1 + 1
    rw [(idx_facts (lastPoint (i 0).val hi0)).2.2.2.2.2.2.1]
    omega

/-- So the result array ends holding `outArr`. -/
theorem final_out (c : Dev nD) : (dats m 0 c).arrAt 3 cfg0.N = outArr m c :=
  (dats m 0 c).arrAt_eq_of_cover 3 (outArr m c) (flushed_eq m c) (covered c)

end Cert.KernelIdeal.Tile

end
-- ==== Proof.KernelRun.lean ====
/-
  The kernel program's run: the loss.

  After the kernel region the host sums the [2048, 1] result array over both axes, from the float zero, and divides by
  the word of 2048. The array holds the clipped picked distances, one per row, so the sum is the sum over the 2048
  rows and the quotient is the loss.
-/
import proofs.«418559_j8297876815993_1_alg».proof.Proof.KernelValue

noncomputable section

open Idealize.ShloMosaic Idealize.ShloMosaic.TcCoe Idealize.SL.Sem Idealize.ShloMosaic.ValueIdx
open Idealize.ShloMosaic.Pipeline (Dat)
open scoped BigOperators

namespace Cert.KernelIdeal.Tile

open Cert.KernelIdeal Cert.KernelIdeal.Gen Cert.CenterLoss

variable (m : (ℓ : Loc nD τ sig) → Buf (Elt Ideal) ℓ) (ρ : Dev nD → PrngReg)

/-- The host's mean of the result array is the loss. -/
theorem mean_out (c : Dev nD) :
    Host.divf (F := Ideal) (Host.reduceAdd (F := Ideal) (outArr m c) (constant (F := Ideal) S_ .f32 0x00000000#32) reducesTo_S2048x1_S_d0_1 h_S_)
        (constant (F := Ideal) S_ .f32 0x45000000#32)
      = loss (larr m c) (xarr m c) (carr m c) := by
  funext i
  show FloatOps.hostDivf (Host.reduceAdd (F := Ideal) (outArr m c) (constant (F := Ideal) S_ .f32 0x00000000#32) reducesTo_S2048x1_S_d0_1 h_S_ i) (Ideal.ofBits .f32 0x45000000#32) = _
  simp only [Host.reduceAdd, Ideal.hostReduceAdd_def, Ideal.hostDivf_def]
  rw [Ideal.hostReduceAdd_total reducesTo_S2048x1_S_d0_1 (fun b => b.elim0), constant_apply, Ideal.ofBits_zero_f32, zero_add,
    sum_idx2]
  unfold loss
  refine congrArg (Ideal.div · _) (Finset.sum_congr rfl fun b _ => ?_)
  rw [Fin.sum_univ_one]
  rfl

theorem tail_eq (c : Dev nD) :
    Pipeline.afterTail₀ cfgs (dats m) 0 (V0 m) [hostOps1] c main_v2 = loss (larr m c) (xarr m c) (carr m c) := by
  unfold Pipeline.afterTail₀
  show StableHlo.after hostOps1 _ (Proc.devRef .tc main_v2) = _
  after_results
  rw [show Pipeline.withArrays (cfgs 0).spec c (V0 m c) (fun w => (dats m 0 c).arrAt w (cfgs 0).N) (Proc.tc.devRef main_v0)
      = outArr m c from (Pipeline.withArrays_arr spec0 launch0.win.arr_inj c _ _ 3).trans (final_out m c)]
  exact mean_out m c

/-- THE RUN, READ: every weakly fair execution of the kernel program ends with the result at the loss of the
    argument arrays, and the arguments unchanged. -/
theorem run : θ_run defs (onTc (τ := τ) (main (F := Ideal))) ⟨m, fun _ => 0, ρ⟩ fun r => ∀ c : Dev nD,
      r.2.mem ((c.tc : Thread nD τ).loc main_v2)
          = loss (m ((c.tc : Thread nD τ).loc main_arg1)) (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v2 (by decide)).trans (tail_eq m c),
        ((h c).1 0).trans (((dats m 0 c).arrAt_in 0 rfl _).trans ((A_eq m c 0).trans (V_main_arg0 m c))),
        ((h c).1 2).trans (((dats m 0 c).arrAt_in 2 rfl _).trans ((A_eq m c 2).trans (V_main_arg1 m c))),
        ((h c).1 1).trans (((dats m 0 c).arrAt_in 1 rfl _).trans ((A_eq m c 1).trans (V_main_arg2 m c)))⟩)
    (run_main m ρ)

end Cert.KernelIdeal.Tile

end
-- ==== Proof.RefLabels.lean ====
/-
  The labels named by the precondition.

  The precondition of the claim is the conjunction of four tests, each an "all" over an array reduced by "and" to one
  bit: every entry of x is finite, every entry of the centers is finite, every label is at least 0, every label is
  below 16384 (the last two compared as signed 32-bit integers). Only the two label tests are read here: a word that
  is not negative as a signed integer and below 16384 as a signed integer is, read as a natural number, below 16384.
-/
import proofs.«418559_j8297876815993_1_alg».proof.Proof.Gen.Pre_finite_inputs
import Idealize.ShloMosaic.PureOps.Ideal
import Idealize.ShloMosaic.Lib.ReduceAll
import Idealize.ShloMosaic.Lib.ValueIdx
import Idealize.ShloMosaic.Lib.StableHlo.Predicate

noncomputable section

namespace Cert.ReferenceIdeal.RefLabels

open Idealize.ShloMosaic Idealize.ShloMosaic.ValueIdx

/-- The scalar shape has one index. -/
instance : Subsingleton Cert.Pre_finite_inputs.S_.Idx := ⟨fun a b => funext fun d => d.elim0⟩

/-- A 32-bit word w with 0 ≤ w and w < n as signed integers (n below 2³¹) is below n as a natural number: a word whose
    top bit is set reads negative, so the first test leaves only words that read the same signed and unsigned. -/
theorem toNat_lt_of_signed_range (w : BitVec 32) (n : Nat) (hn : n < 2 ^ 31)
    (h0 : IntOp.cmpi .sge w 0#32 = 1#1) (h1 : IntOp.cmpi .slt w (BitVec.ofNat 32 n) = 1#1) : w.toNat < n := by
  have hn' : (BitVec.ofNat 32 n).toInt = n := StableHlo.Predicate.toInt_ofNat_small n hn
  unfold IntOp.cmpi at h0 h1
  have e0 : (0 : Int) ≤ w.toInt := by
    have h := (StableHlo.Predicate.ofBool_eq_one_iff _).mp h0
    simpa [BitVec.sle] using h
  have e1 : w.toInt < n := by
    have h := (StableHlo.Predicate.ofBool_eq_one_iff _).mp h1
    rw [BitVec.slt, decide_eq_true_eq, hn'] at h
    exact h
  have hc := BitVec.toInt_eq_toNat_cond w
  have hw := w.isLt
  split_ifs at hc <;> omega

/-- Under the precondition every label, read as a natural number, names one of the 16384 centers. -/
theorem label_lt (x0 : FVec Ideal Cert.Pre_finite_inputs.S2048x2048 .f32) (x1 : IVec Cert.Pre_finite_inputs.S2048 32)
    (x2 : FVec Ideal Cert.Pre_finite_inputs.S16384x2048 .f32)
    (hpre : Cert.Pre_finite_inputs.fn (F := Ideal) x0 x1 x2 = fun _ => 1#1) (b : Fin 2048) :
    (x1 (ix1 b)).toNat < 16384 := by
  have e := congrFun hpre ix0
  dsimp only [Cert.Pre_finite_inputs.fn, Cert.Pre_finite_inputs.fn_part1] at e
  -- the conjunction is ((x finite ∧ centers finite) ∧ labels ≥ 0) ∧ labels < 16384
  obtain ⟨e12, e15⟩ := IntOp.andi_eq_one.mp e
  obtain ⟨-, e11⟩ := IntOp.andi_eq_one.mp e12
  -- each "all" is 1, so each compared entry is 1; the compared constants are the broadcast words 0 and 16384
  have c0 : IntOp.cmpi .sge (x1 (ix1 b)) 0#32 = 1#1 := Host.reduce_andi_all _ _ _ _ _ e11 (ix1 b)
  have c1 : IntOp.cmpi .slt (x1 (ix1 b)) (BitVec.ofNat 32 16384) = 1#1 := Host.reduce_andi_all _ _ _ _ _ e15 (ix1 b)
  exact toNat_lt_of_signed_range _ 16384 (by decide) c0 c1

end Cert.ReferenceIdeal.RefLabels

end
-- ==== Proof.LibTakeAlongRow.lean ====
/-
  A row-wise take: `stablehlo.gather` of a rank-2 operand `x : [N, C]` at one start index per row.

  What `take_along_axis(x, idx, axis = 1)` with one picked column per row lowers to: the start indices are
  `idx : [N, 1, 1]`, the result is `[N, 1]`, and the dimension numbers are offset_dims `[]`, collapsed_slice_dims `[1]`,
  operand_batching_dims `[0]`, start_indices_batching_dims `[0]`, start_index_map `[1]`, index_vector_dim `2`,
  slice_sizes `[1, 1]`. Axis 0 is a batching axis: result row `b` reads operand row `b`. Axis 1 is the gathered
  axis: the column is the start index `idx[b, 0, 0]`, read as a signed integer and clamped into `[0, C − 1]`
  (StableHLO clamps every start index so that the slice fits). So

      result[b, 0] = x[b, clamp(idx[b, 0, 0])].

  Stated for any number of rows `N`, any number of columns `C` and any width of the index words.
-/
import Idealize.ShloMosaic.Lib.ValueIdx

noncomputable section

namespace Idealize.ShloMosaic.ValueIdx

open Idealize.ShloMosaic

section TakeAlongRow
variable {α : Type}

/-- The dimension numbers of the row-wise take, for an operand `[N, C]`, start indices `[N, 1, 1]` and result
    `[N, 1]`; their conditions `wf` are decided on a program's literal shapes. -/
abbrev takeRowDims (N C : Nat)
    (wf : GatherDims.WF ⟨2, ![N, C]⟩ ⟨3, ![N, 1, 1]⟩ ⟨2, ![N, 1]⟩ [] [1] [0] [1] [0] 2 ![1, 1]) :
    GatherDims ⟨2, ![N, C]⟩ ⟨3, ![N, 1, 1]⟩ ⟨2, ![N, 1]⟩ where
  offsetDims := []
  collapsedSliceDims := [1]
  operandBatchingDims := [0]
  startIndicesBatchingDims := [0]
  startIndexMap := [1]
  indexVectorDim := 2
  sliceSizes := ![1, 1]
  wf := wf

/-- The start-indices index `[b, 0, 0]` of result index `(b, 0)`. -/
abbrev takeRowIdx {N : Nat} (y : (⟨2, ![N, 1]⟩ : Shape).Idx) : (⟨3, ![N, 1, 1]⟩ : Shape).Idx :=
  fun a => match a with | ⟨0, _⟩ => ⟨(y 0).val, idx2_lt0 y⟩ | ⟨1, _⟩ => ⟨0, Nat.one_pos⟩ | ⟨2, _⟩ => ⟨0, Nat.one_pos⟩

/-- THE ROW-WISE TAKE READ AT `(b, 0)`: the operand at row `b` and at the column `idx[b, 0, 0]`, read signed and
    clamped into `[0, C − 1]`. -/
theorem gather_takeRow_apply {N C w : Nat} (hC : 0 < C)
    (wf : GatherDims.WF ⟨2, ![N, C]⟩ ⟨3, ![N, 1, 1]⟩ ⟨2, ![N, 1]⟩ [] [1] [0] [1] [0] 2 ![1, 1])
    (x : (⟨2, ![N, C]⟩ : Shape).Idx → α) (idx : IVec ⟨3, ![N, 1, 1]⟩ w) (y : (⟨2, ![N, 1]⟩ : Shape).Idx) :
    Host.gather (takeRowDims N C wf) x idx y
      = x (ix2 (⟨(y 0).val, idx2_lt0 y⟩ : Fin N) (⟨min (idx (takeRowIdx y)).toInt.toNat (C - 1), by omega⟩ : Fin C)) := by
  unfold Host.gather
  congr 1
  funext a
  refine Fin.ext ?_
  show (takeRowDims N C wf).start y idx a + (takeRowDims N C wf).batchCoord y a + (takeRowDims N C wf).offCoord y a = _
  match a with
  | ⟨0, _⟩ =>
    -- the batching axis: no start index, no offset; the row is the result's own row
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (⟨0, _⟩ : Fin 2) ∈ (takeRowDims N C wf).operandBatchingDims from List.mem_singleton.mpr rfl)]
    rfl
  | ⟨1, _⟩ =>
    -- the gathered axis: collapsed (no offset), not batching; the column is the clamped start index
    rw [GatherDims.batchCoord_eq_zero _ _ _ (fun h => Nat.one_ne_zero (congrArg Fin.val (List.mem_singleton.mp h))),
      GatherDims.offCoord_eq_zero _ _ _ (fun h => ((GatherDims.mem_sKept _ _).mp h).1 (List.mem_singleton.mpr rfl))]
    simp only [Nat.add_zero]
    unfold GatherDims.start
    rw [dif_pos (show (⟨1, _⟩ : Fin 2) ∈ (takeRowDims N C wf).startIndexMap from List.mem_singleton.mpr rfl)]
    have hsi : (takeRowDims N C wf).siIdx y ⟨List.idxOf (⟨1, by decide⟩ : Fin 2) (takeRowDims N C wf).startIndexMap,
        List.idxOf_lt_length_iff.2 (List.mem_singleton.mpr rfl)⟩ = takeRowIdx y := by
      funext b; refine Fin.ext ?_
      match b with
      | ⟨0, _⟩ => rfl
      | ⟨1, _⟩ =>
        -- the start indices' middle axis has extent one: the result's second coordinate, itself below one, is zero
        show (y 1).val = 0
        have := idx2_lt1 y
        omega
      | ⟨2, _⟩ => rfl
    rw [hsi]
    rfl

end TakeAlongRow

end Idealize.ShloMosaic.ValueIdx

end
-- ==== Proof.RefDist.lean ====
/-
  The distance matrix of the reference, entry by entry.

  Entry (b, n) of the 2048 × 16384 matrix the reference builds is  ‖x_b‖² + ‖c_n‖² − 2·⟨x_b, c_n⟩ :
  the row sums of x∘x and of c∘c, each broadcast along the other axis, added, less twice the product of x with the
  transposed centers. Each of the three sums runs over the 2048 features; the initial value of each reduction is the
  word of the float zero, which adds nothing.
-/
import proofs.«418559_j8297876815993_1_alg».proof.Proof.Gen.ReferenceIdeal.Read
import proofs.«418559_j8297876815993_1_alg».proof.Proof.Spec
import Idealize.ShloMosaic.Lib.ValueIdx
import Idealize.ShloMosaic.PureOps.Ideal.Laws

noncomputable section

namespace Cert.ReferenceIdeal.RefDist

open Cert.ReferenceIdeal Cert.ReferenceIdeal.Read Cert.CenterLoss
open Idealize.ShloMosaic Idealize.ShloMosaic.ValueIdx
open scoped BigOperators

/-! ### The indices each stage reads, by coordinates -/

/-- The squared-norm of row b is read at the features of row b, whatever the column n. -/
theorem idx_rowsq (b : Fin 2048) (n : Fin 16384) (k : Fin 2048) :
    idx_main_v1 (idx_main_v2 (idx_main_v6 (ix2 b n))) k = ix2 b k := by
  funext a; match a with | ⟨0, _⟩ => rfl | ⟨1, _⟩ => rfl

/-- The squared-norm of center n is read at the features of center n, whatever the row b. -/
theorem idx_censq (b : Fin 2048) (n : Fin 16384) (k : Fin 2048) :
    idx_main_v4 (idx_main_v5 (idx_main_v7 (ix2 b n))) k = ix2 n k := by
  funext a; match a with | ⟨0, _⟩ => rfl | ⟨1, _⟩ => rfl

/-- The product's left factor at (b, n) and feature k is x at (b, k). -/
theorem idx_dot_l (b : Fin 2048) (n : Fin 16384) (k : Fin 2048) : lidx_main_v10 (ix2 b n) k = ix2 b k := by
  funext a; match a with | ⟨0, _⟩ => rfl | ⟨1, _⟩ => rfl

/-- The product's right factor at (b, n) and feature k is the transposed centers at (k, n): the centers at (n, k). -/
theorem idx_dot_r (b : Fin 2048) (n : Fin 16384) (k : Fin 2048) :
    idx_main_v9 (ridx_main_v10 (ix2 b n) k) = ix2 n k := by
  funext a; match a with | ⟨0, _⟩ => rfl | ⟨1, _⟩ => rfl

/-! ### The three sums -/

/-- ‖x_b‖², broadcast along the columns. -/
theorem rowsq_apply (x0 : XArr) (b : Fin 2048) (n : Fin 16384) :
    val_main_v6 (F := Ideal) x0 (ix2 b n) = ∑ k : Fin 2048, x0 (ix2 b k) * x0 (ix2 b k) := by
  rw [val_main_v6_apply, val_main_v2_apply, val_main_v1_apply, val_main_cst_apply, Ideal.ofBits_def,
    Ideal.ofBits_zero_f32, zero_add]
  refine Finset.sum_congr rfl fun k _ => ?_
  rw [val_main_v0_apply, idx_rowsq, Ideal.mulf_def]

/-- ‖c_n‖², broadcast along the rows. -/
theorem censq_apply (x2 : CArr) (b : Fin 2048) (n : Fin 16384) :
    val_main_v7 (F := Ideal) x2 (ix2 b n) = ∑ k : Fin 2048, x2 (ix2 n k) * x2 (ix2 n k) := by
  rw [val_main_v7_apply, val_main_v5_apply, val_main_v4_apply, val_main_cst_0_apply, Ideal.ofBits_def,
    Ideal.ofBits_zero_f32, zero_add]
  refine Finset.sum_congr rfl fun k _ => ?_
  rw [val_main_v3_apply, idx_censq, Ideal.mulf_def]

/-- ⟨x_b, c_n⟩. -/
theorem dot_apply (x0 : XArr) (x2 : CArr) (b : Fin 2048) (n : Fin 16384) :
    val_main_v10 (F := Ideal) x0 x2 (ix2 b n) = ∑ k : Fin 2048, x0 (ix2 b k) * x2 (ix2 n k) := by
  rw [val_main_v10_apply]
  refine Finset.sum_congr rfl fun k _ => ?_
  rw [val_main_v9_apply, idx_dot_l, idx_dot_r]

/-! ### The entry -/

/-- Entry (b, n) of the distance matrix is the squared distance of row b to center n, in its expanded form. -/
theorem dist_apply (x0 : XArr) (x2 : CArr) (b : Fin 2048) (n : Fin 16384) :
    val_main_v13 (F := Ideal) x0 x2 (ix2 b n) = sqdist x0 x2 b n := by
  rw [val_main_v13_apply, val_main_v8_apply, val_main_v12_apply, val_main_v11_apply, val_main_cst_1_apply,
    rowsq_apply, censq_apply, dot_apply, Ideal.subf_def, Ideal.addf_def, Ideal.mulf_def, Ideal.ofBits_def]
  rfl

end Cert.ReferenceIdeal.RefDist

end
-- ==== Proof.RefPick.lean ====
/-
  The picked distance: what take_along_axis leaves in row b.

  take_along_axis consists of four steps. The label is first wrapped (a negative label has 16384 added); a mask says
  whether the wrapped label lies in [0, 16383]; a row-wise take reads row b of the distance matrix at the column the
  wrapped label names, clamped into [0, 16383]; and where the mask is off the result is replaced by NaN's word.
  When the label, read as a natural number, is below 16384, it is not negative, the wrap keeps it, the mask is on,
  the clamp is the identity, and the row's result is the distance of row b to the center the label names.
-/
import proofs.«418559_j8297876815993_1_alg».proof.Proof.Gen.ReferenceIdeal.Read
import proofs.«418559_j8297876815993_1_alg».proof.Proof.Spec
import proofs.«418559_j8297876815993_1_alg».proof.Proof.LibTakeAlongRow
import proofs.«418559_j8297876815993_1_alg».proof.Proof.RefDist
import Idealize.ShloMosaic.Lib.ValueIdx
import Idealize.ShloMosaic.Lib.StableHlo.Predicate
import Idealize.ShloMosaic.PureOps.Reduce

noncomputable section

namespace Cert.ReferenceIdeal.RefPick

open Cert.ReferenceIdeal Cert.ReferenceIdeal.Read Cert.CenterLoss
open Idealize.ShloMosaic Idealize.ShloMosaic.ValueIdx
open scoped BigOperators

/-! ### An "and" over words that are all 1 -/

/-- A left fold by "and" from 1 over words that are all 1 is 1. -/
theorem foldl_andi_of_all {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..), show IntOp.andi 1#1 1#1 = (1#1 : BitVec 1) from by decide]
    exact foldl_andi_of_all f l (fun n hn => h n (List.mem_cons_of_mem _ hn))

/-- A reduction by "and", from the initial word 1, of an array whose entries are all 1 is 1 at every result index. -/
theorem reduce_andi_of_all {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_of_all x _ (fun i _ => hx i)

/-! ### The wrapped label and the mask -/

/-- The wrapped label at any index of row b is the label of row b, when that label names a center: it is not
    negative, so the comparison with 0 is off and the select keeps the label itself. -/
theorem wrapped_apply (x1 : LArr) (i : S2048x1x1.Idx) (b : Fin 2048) (hb : (i 0).val = b.val)
    (hl : (x1 (ix1 b)).toNat < 16384) : val_main_call0_v5 (F := Ideal) x1 i = x1 (ix1 b) := by
  have hidx : idx_main_v14 (idx_main_call0_v5 i) = ix1 b := by
    funext a
    match a with
    | ⟨0, _⟩ =>
      refine Fin.ext ?_
      show (((i 0).val * 1 + (i 1).val) * 1 + (i 2).val) / 1 = b.val
      have h1 : (i 1).val < 1 := (i 1).isLt
      have h2 : (i 2).val < 1 := (i 2).isLt
      omega
  have hneg : IntOp.cmpi .slt (x1 (ix1 b)) 0#32 = 0#1 :=
    eq_zero_of_ne_one fun h => by
      have := (StableHlo.Predicate.slt_iff_toNat (a := x1 (ix1 b)) (b := 0#32) (by omega) (by decide)).mp h
      exact absurd this (by simp)
  rw [val_main_call0_v5_apply, val_main_call0_v4_apply, val_main_call0_v1_apply, val_main_v14_apply,
    val_main_call0_v0_apply, val_main_call0_c_apply, hidx, hneg, select_zero]

/-- The mask, before its reduction over the unit axis, is on at every index of a row whose label names a center:
    0 ≤ label and label ≤ 16383. -/
theorem inbounds_apply (x1 : LArr) (i : S2048x1x1.Idx) (b : Fin 2048) (hb : (i 0).val = b.val)
    (hl : (x1 (ix1 b)).toNat < 16384) : val_main_call0_v11 (F := Ideal) x1 i = 1#1 := by
  rw [val_main_call0_v11_apply, val_main_call0_v7_apply, val_main_call0_v10_apply, wrapped_apply x1 i b hb hl,
    val_main_call0_v6_apply, val_main_call0_c_2_apply, val_main_call0_v9_apply, val_main_call0_v8_apply,
    val_main_call0_c_1_apply]
  have h0 : IntOp.cmpi .sge (x1 (ix1 b)) 0#32 = 1#1 :=
    (StableHlo.Predicate.sge_iff_toNat (by omega) (by decide)).mpr (Nat.zero_le _)
  have h1 : IntOp.cmpi .sle (x1 (ix1 b)) 16383#32 = 1#1 :=
    (StableHlo.Predicate.sle_iff_toNat (by omega) (by decide)).mpr (by show _ ≤ 16383; omega)
  rw [h0, h1]
  decide

/-- The mask is on at every row, when every label names a center. -/
theorem mask_apply (x1 : LArr) (hl : ∀ b : Fin 2048, (x1 (ix1 b)).toNat < 16384) (j : S2048x1.Idx) :
    val_main_call0_v12 (F := Ideal) x1 j = 1#1 := by
  unfold val_main_call0_v12
  refine reduce_andi_of_all _ _ _ _ j (val_main_call0_c_3_apply _) fun i => ?_
  exact inbounds_apply x1 i ⟨(i 0).val, (i 0).isLt⟩ rfl (hl _)

/-! ### The take, and the row's result -/

/-- The row-wise take at (b, 0) reads the distance matrix at row b and at the column the label names. -/
theorem take_apply (x0 : XArr) (x1 : LArr) (x2 : CArr) (b : Fin 2048) (hl : (x1 (ix1 b)).toNat < 16384) :
    val_main_call0_v13 (F := Ideal) x0 x1 x2 (ix2 b (0 : Fin 1)) = sqdist x0 x2 b ⟨(x1 (ix1 b)).toNat, hl⟩ := by
  unfold val_main_call0_v13
  refine (gather_takeRow_apply (N := 2048) (C := 16384) (by decide)
    Facts₀.gather_S2048x16384_S2048x1x1_S2048x1_n_1_0_0_1_2_11_wf
    (val_main_v13 (F := Ideal) x0 x2) (val_main_call0_v5 (F := Ideal) x1) (ix2 b (0 : Fin 1))).trans ?_
  rw [← RefDist.dist_apply]
  refine congrArg (val_main_v13 (F := Ideal) x0 x2) (congrArg (ix2 b) (Fin.ext ?_))
  -- the clamp is the identity on a label that names a center
  show min (val_main_call0_v5 (F := Ideal) x1 (takeRowIdx (ix2 b (0 : Fin 1)))).toInt.toNat (16384 - 1)
    = (x1 (ix1 b)).toNat
  rw [wrapped_apply x1 _ b rfl hl, StableHlo.Predicate.toInt_eq_toNat_of_lt (by omega), Int.toNat_natCast]
  omega

/-- THE ROW'S RESULT: the value take_along_axis leaves at (b, 0) is the picked distance of row b. -/
theorem picked_apply (x0 : XArr) (x1 : LArr) (x2 : CArr) (hl : ∀ b : Fin 2048, (x1 (ix1 b)).toNat < 16384)
    (b : Fin 2048) : val_main_v15 (F := Ideal) x0 x1 x2 (ix2 b (0 : Fin 1)) = picked x1 x0 x2 b := by
  rw [val_main_v15_apply, mask_apply x1 hl, select_one, take_apply x0 x1 x2 b (hl b)]
  unfold picked
  rw [dif_pos (hl b)]

end Cert.ReferenceIdeal.RefPick

end
-- ==== Proof.RefValue.lean ====
/-
  The value of the reference: the center loss.

  The reference ends with: reshape the picked column to a vector, clip it between the two bound words (a maximum with
  the lower, then a minimum with the upper), sum the 2048 entries from the float zero, divide by the word of 2048.
  Under the precondition every label names a center, so row b's picked entry is the distance of x_b to its center, and
  the result is the mean of the clipped picked distances.
-/
import proofs.«418559_j8297876815993_1_alg».proof.Proof.Gen.ReferenceIdeal.Read
import proofs.«418559_j8297876815993_1_alg».proof.Proof.Gen.Pre_finite_inputs
import proofs.«418559_j8297876815993_1_alg».proof.Proof.Spec
import proofs.«418559_j8297876815993_1_alg».proof.Proof.RefLabels
import proofs.«418559_j8297876815993_1_alg».proof.Proof.RefPick
import Idealize.ShloMosaic.Lib.ValueIdx
import Idealize.ShloMosaic.Lib.ValueIdxRank1
import Idealize.ShloMosaic.PureOps.Ideal.Laws

noncomputable section

namespace Cert.ReferenceIdeal.RefValue

open Cert.ReferenceIdeal Cert.ReferenceIdeal.Read Cert.CenterLoss
open Idealize.ShloMosaic Idealize.ShloMosaic.ValueIdx
open scoped BigOperators

/-- Entry b of the clipped vector is the clipped picked distance of row b: the reshape reads (b, 0), and the two
    bounds are the broadcast words. -/
theorem clipped_apply (x0 : XArr) (x1 : LArr) (x2 : CArr) (hl : ∀ b : Fin 2048, (x1 (ix1 b)).toNat < 16384)
    (b : Fin 2048) : val_main_v17 (F := Ideal) x0 x1 x2 (ix1 b) = clip (picked x1 x0 x2 b) := by
  have hidx : idx_main_v16 (ix1 b) = ix2 b (0 : Fin 1) := by
    funext a
    match a with
    | ⟨0, _⟩ => exact Fin.ext (Nat.div_one _)
    | ⟨1, _⟩ => rfl
  rw [val_main_v17_apply, val_main_call1_v4_apply, val_main_call1_v3_apply, val_main_cst_3_apply,
    val_main_call1_v2_apply, val_main_call1_v1_apply, val_main_call1_v0_apply, val_main_cst_2_apply,
    val_main_v16_apply, hidx, RefPick.picked_apply x0 x1 x2 hl b, Ideal.minimumf_def, Ideal.maximumf_def]
  rfl

/-- THE REFERENCE'S VALUE: under the precondition the reference computes the center loss. -/
theorem result_eq (x0 : Cert.CenterLoss.XArr) (x1 : Cert.CenterLoss.LArr) (x2 : Cert.CenterLoss.CArr)
    (hpre : Cert.Pre_finite_inputs.fn (F := Ideal) x0 x1 x2 = fun _ => 1#1) :
    Cert.ReferenceIdeal.Read.val_main_v19 (F := Ideal) x0 x1 x2 = Cert.CenterLoss.loss x1 x0 x2 := by
  have hl : ∀ b : Fin 2048, (x1 (ix1 b)).toNat < 16384 := RefLabels.label_lt x0 x1 x2 hpre
  funext i
  rw [val_main_v19_apply, val_main_v18_apply, val_main_cst_4_apply, val_main_cst_5_apply, Ideal.hostDivf_def,
    Ideal.ofBits_def, Ideal.ofBits_zero_f32, zero_add]
  unfold loss
  -- the 2048 indices of the vector are its 2048 coordinates
  rw [← Equiv.sum_comp (idxEquiv1 (n := 2048)).symm]
  refine congrArg (Ideal.div · _) (Finset.sum_congr rfl fun b _ => ?_)
  exact clipped_apply x0 x1 x2 hl b

end Cert.ReferenceIdeal.RefValue

end
-- ==== Proof.lean ====
/-
  Center loss on a tiled kernel against its plain reference, over the extended reals.

  Both programs compute, for x (2048 rows of 2048 features), centers (16384 rows) and one label per row of x,
      loss = (1/2048) · Σ_b clip( ‖x_b‖² + ‖c_{l_b}‖² − 2·⟨x_b, c_{l_b}⟩ , 1e-12, 1e12 ).
  The reference builds the whole 2048 × 16384 distance matrix and takes, per row, the entry its label names. The
  kernel walks a 4 × 32 grid of 512 × 512 tiles of that matrix without ever storing it: in each tile it keeps, per row,
  the entry whose global column number equals the row's label (a compare against the column numbers, a select
  against zero, a row sum), accumulates these row sums over the 32 column tiles in a running column, and after the
  last column tile writes the clipped column out; the host then takes the mean. A row's label names exactly one of
  the 16384 columns, so over the 32 column tiles the running column collects that one distance and zeros: the sum of
  one extended real and zeros, which needs no finiteness. The kernel's product runs on operands narrowed to a
  shorter float format, which on the extended reals is the identity.

  The claim is stated for labels in their range 0 ≤ l_b < 16384: outside it the reference either wraps a negative label
  around or yields NaN, while the kernel's compare finds no column; inside it the reference's wrap, range mask and
  clamp all leave the label alone.

  Module by module: Spec (the loss as one function, and the scan of the columns tile by tile), Pieces (what one grid
  point stores, as functions of what it read), TileStep (one grid point's contribution entry by entry), Column (the
  running column across the grid, by induction on the grid point), KernelValue and KernelRun (the result array and the
  host's mean), RefLabels, RefDist, RefPick, RefValue (the reference's stages under the label range).
-/
import proofs.«418559_j8297876815993_1_alg».proof.Defs
import proofs.«418559_j8297876815993_1_alg».proof.Proof.Gen.Kernel
import proofs.«418559_j8297876815993_1_alg».proof.Proof.Gen.Kernel.Skeleton
import proofs.«418559_j8297876815993_1_alg».proof.Proof.Gen.Kernel.Launch
import proofs.«418559_j8297876815993_1_alg».proof.Proof.Gen.Kernel.Points
import proofs.«418559_j8297876815993_1_alg».proof.Proof.Gen.Kernel.Frame
import proofs.«418559_j8297876815993_1_alg».proof.Proof.Gen.KernelIdeal
import proofs.«418559_j8297876815993_1_alg».proof.Proof.Gen.KernelIdeal.Skeleton
import proofs.«418559_j8297876815993_1_alg».proof.Proof.Gen.KernelIdeal.Launch
import proofs.«418559_j8297876815993_1_alg».proof.Proof.Gen.KernelIdeal.Points
import proofs.«418559_j8297876815993_1_alg».proof.Proof.Gen.KernelIdeal.Frame
import proofs.«418559_j8297876815993_1_alg».proof.Proof.Gen.ReferenceIdeal
import proofs.«418559_j8297876815993_1_alg».proof.Proof.Gen.Pre_finite_inputs
import proofs.«418559_j8297876815993_1_alg».proof.Proof.Gen.ReferenceIdeal.Run
import proofs.«418559_j8297876815993_1_alg».proof.Proof.Gen.ReferenceIdeal.Read
import proofs.«418559_j8297876815993_1_alg».proof.Proof.KernelRun
import proofs.«418559_j8297876815993_1_alg».proof.Proof.RefValue
import Idealize.ShloMosaic.Adequacy
import Idealize.ShloMosaic.Init

noncomputable section

namespace Cert.Proof

open Idealize.ShloMosaic Idealize.SL.Sem

/-- The word-level kernel program runs and leaves its arguments as they were. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end at the center loss of the (agreeing) argument arrays: the kernel program for any labels, the
    reference for labels in their range, which the precondition provides. -/
theorem algebraic : Cert.algebraic_KernelIdeal_ReferenceIdeal := by
  intro m ρ m' ρ' hpre hagree
  refine ⟨fun c => Cert.CenterLoss.loss (m ((c.tc : Thread Cert.KernelIdeal.nD Cert.KernelIdeal.τ).loc Cert.KernelIdeal.main_arg1))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2)),
    Cert.KernelIdeal.Tile.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, (hagree c).1, (hagree c).2.1, (hagree c).2.2]
  exact Cert.ReferenceIdeal.RefValue.result_eq _ _ _ (hpre c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
